-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x768 : Shape := ⟨2, ![16384, 768]⟩
abbrev S512x768 : Shape := ⟨2, ![512, 768]⟩
abbrev S512 : Shape := ⟨1, ![512]⟩
abbrev S1x1024 : Shape := ⟨2, ![1, 1024]⟩
abbrev S1 : Shape := ⟨1, ![1]⟩
abbrev S_ : Shape := ⟨0, ![]⟩

class Facts : Prop where
  bcast_S_S16384x768 : S_.BroadcastsInDim S16384x768 (![] : Fin 0 → Fin S16384x768.rank)
  reducesTo_S16384x768_S_d0_1 : S16384x768.ReducesTo [0, 1] S_
  h_S_ : 0 < S_.numel
  bcast_S_S512x768 : S_.BroadcastsInDim S512x768 (![] : Fin 0 → Fin S512x768.rank)
  reducesTo_S512x768_S_d0_1 : S512x768.ReducesTo [0, 1] S_
  bcast_S_S512 : S_.BroadcastsInDim S512 (![] : Fin 0 → Fin S512.rank)
  reducesTo_S512_S_d0 : S512.ReducesTo [0] S_
  bcast_S_S1x1024 : S_.BroadcastsInDim S1x1024 (![] : Fin 0 → Fin S1x1024.rank)
  reducesTo_S1x1024_S_d0_1 : S1x1024.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1x1024 .f32) (main_arg5 : FVec F S1 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S16384x768 .f32) (main_arg1 : FVec F S16384x768 .f32) (main_arg2 : FVec F S512x768 .f32) (main_arg3 : FVec F S512 .f32) (main_arg4 : FVec F S1x1024 .f32) (main_arg5 : FVec F S1 .f32) : IVec S_ 1 :=
  let main_v0 : FVec F S16384x768 .f32 := Host.absf main_arg0
  let main_cst : FVec F S_ .f32 := constant S_ .f32 0x7F800000#32
  let main_v1 : FVec F S16384x768 .f32 := broadcastInDim S16384x768 ![] bcast_S_S16384x768 main_cst
  let main_v2 : IVec S16384x768 1 := cmpf .olt main_v0 main_v1
  let main_c : IVec S_ 1 := constantI S_ 1 1#1
  let main_v3 : IVec S_ 1 := (fun x v => Host.reduce IntOp.andi x v reducesTo_S16384x768_S_d0_1 h_S_) main_v2 main_c
  let main_v4 : FVec F S16384x768 .f32 := Host.absf main_arg1
  let main_cst_0 : FVec F S_ .f32 := constant S_ .f32 0x7F800000#32
  let main_v5 : FVec F S16384x768 .f32 := broadcastInDim S16384x768 ![] bcast_S_S16384x768 main_cst_0
  let main_v6 : IVec S16384x768 1 := cmpf .olt main_v4 main_v5
  let main_c_1 : IVec S_ 1 := constantI S_ 1 1#1
  let main_v7 : IVec S_ 1 := (fun x v => Host.reduce IntOp.andi x v reducesTo_S16384x768_S_d0_1 h_S_) main_v6 main_c_1
  let main_v8 : IVec S_ 1 := andi main_v3 main_v7
  let main_v9 : FVec F S512x768 .f32 := Host.absf main_arg2
  let main_cst_2 : FVec F S_ .f32 := constant S_ .f32 0x7F800000#32
  let main_v10 : FVec F S512x768 .f32 := broadcastInDim S512x768 ![] bcast_S_S512x768 main_cst_2
  let main_v11 : IVec S512x768 1 := cmpf .olt main_v9 main_v10
  let main_c_3 : IVec S_ 1 := constantI S_ 1 1#1
  let main_v12 : IVec S_ 1 := (fun x v => Host.reduce IntOp.andi x v reducesTo_S512x768_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_v13 main_v16
-- ==== Kernel.lean ====
abbrev S16384x768 : Shape := ⟨2, ![16384, 768]⟩
abbrev S512x768 : Shape := ⟨2, ![512, 768]⟩
abbrev S512 : Shape := ⟨1, ![512]⟩
abbrev S1x1024 : Shape := ⟨2, ![1, 1024]⟩
abbrev S1 : Shape := ⟨1, ![1]⟩
abbrev S768x512 : Shape := ⟨2, ![768, 512]⟩
abbrev S1x512 : Shape := ⟨2, ![1, 512]⟩
abbrev S1024x1 : Shape := ⟨2, ![1024, 1]⟩
abbrev S1x1 : Shape := ⟨2, ![1, 1]⟩
abbrev S16384x1 : Shape := ⟨2, ![16384, 1]⟩
abbrev S1024x768 : Shape := ⟨2, ![1024, 768]⟩
abbrev S1024x512 : Shape := ⟨2, ![1024, 512]⟩
abbrev S1024x1024 : Shape := ⟨2, ![1024, 1024]⟩

abbrev nBuf : Space → Nat
  | .hbm => 13
  | .vmem => 10
  | .smem => 0
  | _ => 0

abbrev bufTy : (tb : Table) → Fin (tcTables nBuf tb) → BufTy
  | .hbm, ⟨0, _⟩ => ⟨S16384x768, .f32⟩
  | .hbm, ⟨1, _⟩ => ⟨S16384x768, .f32⟩
  | .hbm, ⟨2, _⟩ => ⟨S512x768, .f32⟩
  | .hbm, ⟨3, _⟩ => ⟨S512, .f32⟩
  | .hbm, ⟨4, _⟩ => ⟨S1x1024, .f32⟩
  | .hbm, ⟨5, _⟩ => ⟨S1, .f32⟩
  | .hbm, ⟨6, _⟩ => ⟨S768x512, .f32⟩
  | .hbm, ⟨7, _⟩ => ⟨S768x512, .bf16⟩
  | .hbm, ⟨8, _⟩ => ⟨S1x512, .f32⟩
  | .hbm, ⟨9, _⟩ => ⟨S1024x1, .f32⟩
  | .hbm, ⟨10, _⟩ => ⟨S1024x1, .bf16⟩
  | .hbm, ⟨11, _⟩ => ⟨S1x1, .f32⟩
  | .hbm, ⟨12, _⟩ => ⟨S16384x1, .f32⟩
  | .local _ .vmem, ⟨0, _⟩ => ⟨S1024x768, .f32⟩
  | .local _ .vmem, ⟨1, _⟩ => ⟨S1024x768, .f32⟩
  | .local _ .vmem, ⟨2, _⟩ => ⟨S1024x768, .f32⟩
  | .local _ .vmem, ⟨3, _⟩ => ⟨S1024x768, .f32⟩
  | .local _ .vmem, ⟨4, _⟩ => ⟨S768x512, .bf16⟩
  | .local _ .vmem, ⟨5, _⟩ => ⟨S1x512, .f32⟩
  | .local _ .vmem, ⟨6, _⟩ => ⟨S1024x1, .bf16⟩
  | .local _ .vmem, ⟨7, _⟩ => ⟨S1x1, .f32⟩
  | .local _ .vmem, ⟨8, _⟩ => ⟨S1024x1, .f32⟩
  | .local _ .vmem, ⟨9, _⟩ => ⟨S1024x1, .f32⟩
  | _, _ => ⟨S16384x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S512x768_S768x512_1_0 : S512x768.Transposes [1, 0] S768x512
  bitsLt_bf16_f32 : FTy.bits .bf16 < FTy.bits .f32
  shapeCasts_S512_S1x512 : S512.ShapeCasts S1x512
  transposes_S1x1024_S1024x1_1_0 : S1x1024.Transposes [1, 0] S1024x1
  shapeCasts_S1_S1x1 : S1.ShapeCasts S1x1
  inb_S1024x768_S1024x768_0_0 : ∀ a, (![0, 0] : Fin 2 → Nat) a + S1024x768.size a ≤ S1024x768.size a
  h_S1024x768 : 0 < S1024x768.numel
  inb_S768x512_S768x512_0_0 : ∀ a, (![0, 0] : Fin 2 → Nat) a + S768x512.size a ≤ S768x512.size a
  h_S768x512 : 0 < S768x512.numel
  shapeCasts_S768x512_S768x512 : S768x512.ShapeCasts S768x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  concatenates_S1024x512_S1024x512_S1024x1024_d1 : Shape.Concatenates [S1024x512, S1024x512] S1024x1024 1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  dot_S1024x768_S768x512_S1024x512_1_0_0_1_n_n_wf : DotDims.WF S1024x768 S768x512 S1024x512 [1] [0] [0] [1] [] []
  dot_S1024x1024_S1024x1_S1024x1_1_0_0_1_n_n_wf : DotDims.WF S1024x1024 S1024x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S16384x768.size a
  hwx0_0 : ∀ i : grid0.Coords, EltTy.bits .f32 = 32 ∨ (Rect.block (s := S16384x768) S1024x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x768.size a ≤ S16384x768.size a
  hwx0_1 : ∀ i : grid0.Coords, EltTy.bits .f32 = 32 ∨ (Rect.block (s := S16384x768) S1024x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x512.size a ≤ S768x512.size a
  hwx0_2 : ∀ i : grid0.Coords, EltTy.bits .bf16 = 32 ∨ (Rect.block (s := S768x512) S768x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S1024x1.size a
  hwx0_4 : ∀ i : grid0.Coords, EltTy.bits .bf16 = 32 ∨ (Rect.block (s := S1024x1) S1024x1.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S16384x1.size a
  hwx0_6 : ∀ i : grid0.Coords, EltTy.bits .f32 = 32 ∨ (Rect.block (s := S16384x1) S1024x1.size (cc0_transform_6 i) (hinb0_6 i)).WholeWords (EltTy.packing .f32)

variable [Facts₀]

def dot_S1024x768_S768x512_S1024x512_1_0_0_1_n_n : DotDims S1024x768 S768x512 S1024x512 where
  lhsContracting := [1]
  rhsContracting := [0]
  lhsNonContracting := [0]
  rhsNonContracting := [1]
  lhsBatch := []
  rhsBatch := []
  wf := dot_S1024x768_S768x512_S1024x512_1_0_0_1_n_n_wf
def dot_S1024x1024_S1024x1_S1024x1_1_0_0_1_n_n : DotDims S1024x1024 S1024x1 S1024x1 where
  lhsContracting := [1]
  rhsContracting := [0]
  lhsNonContracting := [0]
  rhsNonContracting := [1]
  lhsBatch := []
  rhsBatch := []
  wf := dot_S1024x1024_S1024x1_S1024x1_1_0_0_1_n_n_wf

abbrev win0_0 : Pipeline.Window sig grid0 :=
  Pipeline.Window.ofSpec (Memref.whole main_arg0) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S768x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1024x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1024x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16384x768 : Shape := ⟨2, ![16384, 768]⟩
abbrev S512x768 : Shape := ⟨2, ![512, 768]⟩
abbrev S512 : Shape := ⟨1, ![512]⟩
abbrev S1x1024 : Shape := ⟨2, ![1, 1024]⟩
abbrev S1 : Shape := ⟨1, ![1]⟩
abbrev S768x512 : Shape := ⟨2, ![768, 512]⟩
abbrev S16384x512 : Shape := ⟨2, ![16384, 512]⟩
abbrev S1x512 : Shape := ⟨2, ![1, 512]⟩
abbrev S16384x1024 : Shape := ⟨2, ![16384, 1024]⟩
abbrev S_ : Shape := ⟨0, ![]⟩
abbrev S1024x1 : Shape := ⟨2, ![1024, 1]⟩
abbrev S16384x1 : Shape := ⟨2, ![16384, 1]⟩
abbrev S1x1 : Shape := ⟨2, ![1, 1]⟩

abbrev nBuf : Space → Nat
  | .hbm => 38
  | .vmem => 0
  | .smem => 0
  | _ => 0

abbrev bufTy : (tb : Table) → Fin (tcTables nBuf tb) → BufTy
  | .hbm, ⟨0, _⟩ => ⟨S16384x768, .f32⟩
  | .hbm, ⟨1, _⟩ => ⟨S16384x768, .f32⟩
  | .hbm, ⟨2, _⟩ => ⟨S512x768, .f32⟩
  | .hbm, ⟨3, _⟩ => ⟨S512, .f32⟩
  | .hbm, ⟨4, _⟩ => ⟨S1x1024, .f32⟩
  | .hbm, ⟨5, _⟩ => ⟨S1, .f32⟩
  | .hbm, ⟨6, _⟩ => ⟨S768x512, .f32⟩
  | .hbm, ⟨7, _⟩ => ⟨S16384x512, .f32⟩
  | .hbm, ⟨8, _⟩ => ⟨S1x512, .f32⟩
  | .hbm, ⟨9, _⟩ => ⟨S16384x512, .f32⟩
  | .hbm, ⟨10, _⟩ => ⟨S16384x512, .f32⟩
  | .hbm, ⟨11, _⟩ => ⟨S768x512, .f32⟩
  | .hbm, ⟨12, _⟩ => ⟨S16384x512, .f32⟩
  | .hbm, ⟨13, _⟩ => ⟨S1x512, .f32⟩
  | .hbm, ⟨14, _⟩ => ⟨S16384x512, .f32⟩
  | .hbm, ⟨15, _⟩ => ⟨S16384x512, .f32⟩
  | .hbm, ⟨16, _⟩ => ⟨S16384x1024, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S16384x1024, .f32⟩
  | .hbm, ⟨24, _⟩ => ⟨S16384x1024, .f32⟩
  | .hbm, ⟨25, _⟩ => ⟨S1024x1, .f32⟩
  | .hbm, ⟨26, _⟩ => ⟨S16384x1, .f32⟩
  | .hbm, ⟨27, _⟩ => ⟨S1x1, .f32⟩
  | .hbm, ⟨28, _⟩ => ⟨S16384x1, .f32⟩
  | .hbm, ⟨29, _⟩ => ⟨S16384x1, .f32⟩
  | .hbm, ⟨30, _⟩ => ⟨S16384x1, .f32⟩
  | .hbm, ⟨31, _⟩ => ⟨S16384x1, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | _, _ => ⟨S16384x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩

abbrev nD : Nat := 1
abbrev τ : Topo := Topo.v7x

variable {F : FTy → Type} [FloatOps F]

class Facts₀ : Prop where
  transposes_S512x768_S768x512_1_0 : S512x768.Transposes [1, 0] S768x512
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  concatenates_S16384x512_S16384x512_S16384x1024_d1 : Shape.Concatenates [S16384x512, S16384x512] S16384x1024 1
  bcast_S_S16384x1024 : S_.BroadcastsInDim S16384x1024 (![] : Fin 0 → Fin S16384x1024.rank)
  transposes_S1x1024_S1024x1_1_0 : S1x1024.Transposes [1, 0] S1024x1
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  bcast_S_S16384x1 : S_.BroadcastsInDim S16384x1 (![] : Fin 0 → Fin S16384x1.rank)
  dot_S16384x768_S768x512_S16384x512_1_0_0_1_n_n_wf : DotDims.WF S16384x768 S768x512 S16384x512 [1] [0] [0] [1] [] []
  dot_S16384x1024_S1024x1_S16384x1_1_0_0_1_n_n_wf : DotDims.WF S16384x1024 S1024x1 S16384x1 [1] [0] [0] [1] [] []

variable [Facts₀]

def dot_S16384x768_S768x512_S16384x512_1_0_0_1_n_n : DotDims S16384x768 S768x512 S16384x512 where
  lhsContracting := [1]
  rhsContracting := [0]
  lhsNonContracting := [0]
  rhsNonContracting := [1]
  lhsBatch := []
  rhsBatch := []
  wf := dot_S16384x768_S768x512_S16384x512_1_0_0_1_n_n_wf
def dot_S16384x1024_S1024x1_S16384x1_1_0_0_1_n_n : DotDims S16384x1024 S1024x1 S16384x1 where
  lhsContracting := [1]
  rhsContracting := [0]
  lhsNonContracting := [0]
  rhsNonContracting := [1]
  lhsBatch := []
  rhsBatch := []
  wf := dot_S16384x1024_S1024x1_S16384x1_1_0_0_1_n_n_wf

class Facts : Prop extends Facts₀ where

variable [Facts]
-- ==== Proof.Spec.lean ====
/-
  The function both programs compute, one output row at a time.

  Each board position comes as two rows of 768 features, `xs` (side to move) and `xn` (the other side).  One
  shared affine layer maps a row to 512 pre-activations,

      hid x r k = (Σ_{j < 768} x[r, j] · w[j, k]) + b[k],

  the two results are laid side by side into 1024 columns (`hidCat`: columns 0 … 511 are the first perspective,
  columns 512 … 1023 the second), each entry is clipped to [0, 1] as min(1, max(0, ·)), and the row's output is
  the logistic function of a second affine form,

      rowOut r = logistic((Σ_{k < 1024} clip(hidCat r k) · v[k]) + c).

  The weights enter through coordinate functions (`w j k`, `b k`, `v k`, `c`), so that a program may hold them
  in any layout.  `rowOut` of row `r` depends on the two input arrays only through their row `r`
  (`rowOut_congr`): a tile of rows computes the same values as the whole array.
-/
import Idealize.ShloMosaic.PureOps.Ideal
import Idealize.ShloMosaic.Lib.ValueIdx

noncomputable section

open Idealize.ShloMosaic Idealize.ShloMosaic.ValueIdx
open scoped BigOperators

namespace Cert.TwoPerspective

/-- One perspective's pre-activation `k` of row `r`: the row's inner product with column `k` of the weights,
    plus the bias. -/
def hid {R : Nat} (x : FVec Ideal ⟨2, ![R, 768]⟩ .f32) (w : Fin 768 → Fin 512 → EReal) (b : Fin 512 → EReal)
    (r : Fin R) (k : Fin 512) : EReal :=
  (∑ j : Fin 768, x (ix2 r j) * w j k) + b k

/-- The two perspectives side by side: column `k` below 512 is the first perspective's pre-activation `k`,
    column `k` from 512 on is the second perspective's pre-activation `k - 512`. -/
def hidCat {R : Nat} (xs xn : FVec Ideal ⟨2, ![R, 768]⟩ .f32) (w : Fin 768 → Fin 512 → EReal) (b : Fin 512 → EReal)
    (r : Fin R) (k : Fin 1024) : EReal :=
  if h : k.val < 512 then hid xs w b r ⟨k.val, h⟩ else hid xn w b r ⟨k.val - 512, by have := k.isLt; omega⟩

/-- The output of row `r`: the logistic function of the clipped 1024 columns' inner product with `v`, plus `c`.
    The clip bounds are kept as the float words both programs print (zero and one). -/
def rowOut {R : Nat} (xs xn : FVec Ideal ⟨2, ![R, 768]⟩ .f32) (w : Fin 768 → Fin 512 → EReal) (b : Fin 512 → EReal)
    (v : Fin 1024 → EReal) (c : EReal) (r : Fin R) : EReal :=
  Ideal.logistic ((∑ k : Fin 1024,
    min (Ideal.ofBits .f32 0x3F800000#32) (max (Ideal.ofBits .f32 0x00000000#32) (hidCat xs xn w b r k)) * v k) + c)

/-- A row's output reads the two input arrays in that row only: arrays (of any two heights) that agree on a row
    give that row the same output, under weights that agree entry by entry. -/
theorem rowOut_congr {R R' : Nat} (xs xn : FVec Ideal ⟨2, ![R, 768]⟩ .f32) (xs' xn' : FVec Ideal ⟨2, ![R', 768]⟩ .f32)
    (w w' : Fin 768 → Fin 512 → EReal) (b b' : Fin 512 → EReal) (v v' : Fin 1024 → EReal) (c c' : EReal)
    (r : Fin R) (r' : Fin R')
    (hs : ∀ j : Fin 768, xs (ix2 r j) = xs' (ix2 r' j)) (hn : ∀ j : Fin 768, xn (ix2 r j) = xn' (ix2 r' j))
    (hw : ∀ j k, w j k = w' j k) (hb : ∀ k, b k = b' k) (hv : ∀ k, v k = v' k) (hc : c = c') :
    rowOut xs xn w b v c r = rowOut xs' xn' w' b' v' c' r' := by
  unfold rowOut hidCat hid
  simp only [hs, hn, hw, hb, hv, hc]

/-- The whole result, a `[16384, 1]` column, from the six arrays as the programs receive them: the two inputs, the
    first layer's weights `[512, 768]` (so `w j k` is entry `(k, j)`) and bias `[512]`, the second layer's weights
    `[1, 1024]` and bias `[1]`.  Entry `(r, 0)` is `rowOut` of row `r`. -/
def netOut (x0 x1 : FVec Ideal ⟨2, ![16384, 768]⟩ .f32) (x2 : FVec Ideal ⟨2, ![512, 768]⟩ .f32) (x3 : FVec Ideal ⟨1, ![512]⟩ .f32)
    (x4 : FVec Ideal ⟨2, ![1, 1024]⟩ .f32) (x5 : FVec Ideal ⟨1, ![1]⟩ .f32) : FVec Ideal ⟨2, ![16384, 1]⟩ .f32 :=
  fun i => rowOut x0 x1 (fun j k => x2 (ix2 k j)) (fun k => x3 (ix1 k)) (fun k => x4 (ix2 0 k)) (x5 (ix1 0)) (i 0)

end Cert.TwoPerspective

end
-- ==== Proof.Layout.lean ====
/-
  Layout operations read at an index, for arrays of `R` rows (any `R`): two arrays of 512 columns joined
  along the column axis into 1024 columns, and a single row (of 512 entries, or of one entry) repeated down
  `R` rows.
-/
import Idealize.ShloMosaic.Lib.Pipeline.Value
import Idealize.ShloMosaic.Lib.ValueIdx

noncomputable section

open Idealize.ShloMosaic Idealize.ShloMosaic.ValueIdx

namespace Cert.TwoPerspective

variable {α : Type}

/-- Two `[R, 512]` arrays joined along the columns: column `k` below 512 of the result is column `k` of the first
    array, column `k` from 512 on is column `k - 512` of the second. -/
theorem concat_cols_apply {R : Nat} (a b : (⟨2, ![R, 512]⟩ : Shape).Idx → α)
    (h : Shape.Concatenates [(⟨2, ![R, 512]⟩ : Shape), (⟨2, ![R, 512]⟩ : Shape)] (⟨2, ![R, 1024]⟩ : Shape) (1 : Fin 2))
    (p : Fin R) (k : Fin 1024) :
    concatenate (⟨2, ![R, 1024]⟩ : Shape) (1 : Fin 2) [⟨(⟨2, ![R, 512]⟩ : Shape), a⟩, ⟨(⟨2, ![R, 512]⟩ : Shape), b⟩] h (ix2 p k)
      = if hk : k.val < 512 then a (ix2 p ⟨k.val, hk⟩) else b (ix2 p ⟨k.val - 512, by have := k.isLt; omega⟩) := by
  by_cases hk : k.val < 512
  · rw [dif_pos hk]
    exact concatenate_pair_apply_left (t := ⟨2, ![R, 1024]⟩) (s₁ := ⟨2, ![R, 512]⟩) (s₂ := ⟨2, ![R, 512]⟩) (1 : Fin 2) a b h
      (ix2 p k) rfl (ix2 p ⟨k.val, hk⟩) (fun c => match c with
        | ⟨0, _⟩ => rfl
        | ⟨1, _⟩ => rfl)
  · rw [dif_neg hk]
    exact concatenate_pair_apply_right (t := ⟨2, ![R, 1024]⟩) (s₁ := ⟨2, ![R, 512]⟩) (s₂ := ⟨2, ![R, 512]⟩) (1 : Fin 2) a b h
      (ix2 p k) rfl rfl (ix2 p ⟨k.val - 512, by have := k.isLt; omega⟩) (fun c => match c with
        | ⟨0, _⟩ => fun _ => rfl
        | ⟨1, _⟩ => fun hne => absurd rfl hne)
      (by show k.val - 512 + 512 = k.val; omega)

/-- A `[1, 512]` row repeated down `R` rows: entry `(p, k)` is the row's entry `k`. -/
theorem bcast_row_apply {R : Nat} (x : (⟨2, ![1, 512]⟩ : Shape).Idx → α)
    (h : (⟨2, ![1, 512]⟩ : Shape).Broadcasts (⟨2, ![R, 512]⟩ : Shape)) (p : Fin R) (k : Fin 512) :
    broadcastTo (⟨2, ![R, 512]⟩ : Shape) x h (ix2 p k) = x (ix2 0 k) :=
  broadcastTo_apply x h (ix2 p k) (ix2 0 k) (fun c => match c with
    | ⟨0, _⟩ => by show 0 = if (1 : Nat) = 1 then 0 else _; rw [if_pos rfl]
    | ⟨1, _⟩ => by show k.val = if (512 : Nat) = 1 then 0 else k.val; rw [if_neg (by decide)])

/-- A `[1, 1]` entry repeated down `R` rows of one column: every entry is that one. -/
theorem bcast_one_apply {R : Nat} (x : (⟨2, ![1, 1]⟩ : Shape).Idx → α)
    (h : (⟨2, ![1, 1]⟩ : Shape).Broadcasts (⟨2, ![R, 1]⟩ : Shape)) (p : Fin R) (q : Fin 1) :
    broadcastTo (⟨2, ![R, 1]⟩ : Shape) x h (ix2 p q) = x (ix2 0 0) :=
  broadcastTo_apply x h (ix2 p q) (ix2 0 0) (fun c => match c with
    | ⟨0, _⟩ => by show 0 = if (1 : Nat) = 1 then 0 else _; rw [if_pos rfl]
    | ⟨1, _⟩ => by show 0 = if (1 : Nat) = 1 then 0 else _; rw [if_pos rfl])

end Cert.TwoPerspective

end
-- ==== Proof.KernelRow.lean ====
/-
  The kernel body's value, row by row.

  The body holds a tile of 1024 rows of each input, the first layer's weights transposed (`w[j, k]`, 768 × 512),
  its bias as a `[1, 512]` row, the second layer's weights as a `[1024, 1]` column and its bias as a `[1, 1]`
  entry.  Its two products into a zero accumulator are plain sums over the contracted axis (the narrowing of the
  operands to a shorter float format changes nothing on extended reals), the bias rows are repeated down the
  tile, the two 512-column results are joined, clipped, multiplied with the column and passed through the
  logistic function: entry `(p, 0)` of what the body stores is `rowOut` of tile row `p`.
-/
import proofs.«150987_j42408507081247_1_alg».proof.Proof.Gen.KernelIdeal.Skeleton
import proofs.«150987_j42408507081247_1_alg».proof.Proof.Spec
import proofs.«150987_j42408507081247_1_alg».proof.Proof.Layout
import Idealize.ShloMosaic.Lib.Pipeline.Value
import Idealize.ShloMosaic.Lib.ValueIdx
import Idealize.ShloMosaic.PureOps.Ideal.Laws

noncomputable section

open Idealize.ShloMosaic Idealize.ShloMosaic.ValueIdx
open scoped BigOperators

namespace Cert.KernelIdeal.Row

open Cert.KernelIdeal Cert.KernelIdeal.Gen Cert.TwoPerspective

/-! ## The first layer's product: tile rows against the transposed weights -/

theorem lhs_mm1_0 (i : S1024x512.Idx) (q : dot_S1024x768_S768x512_S1024x512_1_0_0_1_n_n.contr.Idx) :
    (dot_S1024x768_S768x512_S1024x512_1_0_0_1_n_n.lhsIdx i q 0).val = (i 0).val := by
  unfold DotDims.lhsIdx
  rw [dif_neg (show ¬(0 : Fin S1024x768.rank) ∈ dot_S1024x768_S768x512_S1024x512_1_0_0_1_n_n.lhsBatch by decide), dif_pos (show (0 : Fin S1024x768.rank) ∈ dot_S1024x768_S768x512_S1024x512_1_0_0_1_n_n.lhsNonContracting by decide)]
  rfl
theorem lhs_mm1_1 (i : S1024x512.Idx) (q : dot_S1024x768_S768x512_S1024x512_1_0_0_1_n_n.contr.Idx) :
    (dot_S1024x768_S768x512_S1024x512_1_0_0_1_n_n.lhsIdx i q 1).val = (q ⟨0, by decide⟩).val :=
  dot_S1024x768_S768x512_S1024x512_1_0_0_1_n_n.lhsIdx_val_of_single rfl i q
theorem rhs_mm1_0 (i : S1024x512.Idx) (q : dot_S1024x768_S768x512_S1024x512_1_0_0_1_n_n.contr.Idx) :
    (dot_S1024x768_S768x512_S1024x512_1_0_0_1_n_n.rhsIdx i q 0).val = (q ⟨0, by decide⟩).val :=
  dot_S1024x768_S768x512_S1024x512_1_0_0_1_n_n.rhsIdx_val_of_single rfl i q
theorem rhs_mm1_1 (i : S1024x512.Idx) (q : dot_S1024x768_S768x512_S1024x512_1_0_0_1_n_n.contr.Idx) :
    (dot_S1024x768_S768x512_S1024x512_1_0_0_1_n_n.rhsIdx i q 1).val = (i 1).val := by
  unfold DotDims.rhsIdx
  rw [dif_neg (show ¬(1 : Fin S768x512.rank) ∈ dot_S1024x768_S768x512_S1024x512_1_0_0_1_n_n.rhsBatch by decide), dif_pos (show (1 : Fin S768x512.rank) ∈ dot_S1024x768_S768x512_S1024x512_1_0_0_1_n_n.rhsNonContracting by decide)]
  rfl

/-- Entry `(p, k)` of the first layer's product into a zero accumulator: row `p` of the tile against column `k` of the weights. -/
theorem mm1_apply (x : FVec Ideal S1024x768 .bf16) (w : FVec Ideal S768x512 .bf16) (p : Fin 1024) (k : Fin 512) :
    matmul dot_S1024x768_S768x512_S1024x512_1_0_0_1_n_n none x w (constant S1024x512 .f32 0x00000000#32) (ix2 p k) = ∑ j : Fin 768, x (ix2 p j) * w (ix2 j k) := by
  simp only [matmul]
  rw [Ideal.matmul_constant_zero_apply, ← Equiv.sum_comp (contrEquiv1 dot_S1024x768_S768x512_S1024x512_1_0_0_1_n_n 768 rfl rfl).symm]
  refine Finset.sum_congr rfl fun j _ => ?_
  have hk := contrEquiv1_symm_val dot_S1024x768_S768x512_S1024x512_1_0_0_1_n_n 768 rfl rfl j
  have el : dot_S1024x768_S768x512_S1024x512_1_0_0_1_n_n.lhsIdx (ix2 p k) ((contrEquiv1 dot_S1024x768_S768x512_S1024x512_1_0_0_1_n_n 768 rfl rfl).symm j) = ix2 p j := funext fun a => Fin.ext (by
    match a with
    | ⟨0, _⟩ => exact lhs_mm1_0 _ _
    | ⟨1, _⟩ => exact (lhs_mm1_1 _ _).trans hk)
  have er : dot_S1024x768_S768x512_S1024x512_1_0_0_1_n_n.rhsIdx (ix2 p k) ((contrEquiv1 dot_S1024x768_S768x512_S1024x512_1_0_0_1_n_n 768 rfl rfl).symm j) = ix2 j k := funext fun a => Fin.ext (by
    match a with
    | ⟨0, _⟩ => exact (rhs_mm1_0 _ _).trans hk
    | ⟨1, _⟩ => exact rhs_mm1_1 _ _)
  rw [el, er]

/-! ## The second layer's product: the clipped 1024 columns against the weight column -/

theorem lhs_mm2_0 (i : S1024x1.Idx) (q : dot_S1024x1024_S1024x1_S1024x1_1_0_0_1_n_n.contr.Idx) :
    (dot_S1024x1024_S1024x1_S1024x1_1_0_0_1_n_n.lhsIdx i q 0).val = (i 0).val := by
  unfold DotDims.lhsIdx
  rw [dif_neg (show ¬(0 : Fin S1024x1024.rank) ∈ dot_S1024x1024_S1024x1_S1024x1_1_0_0_1_n_n.lhsBatch by decide), dif_pos (show (0 : Fin S1024x1024.rank) ∈ dot_S1024x1024_S1024x1_S1024x1_1_0_0_1_n_n.lhsNonContracting by decide)]
  rfl
theorem lhs_mm2_1 (i : S1024x1.Idx) (q : dot_S1024x1024_S1024x1_S1024x1_1_0_0_1_n_n.contr.Idx) :
    (dot_S1024x1024_S1024x1_S1024x1_1_0_0_1_n_n.lhsIdx i q 1).val = (q ⟨0, by decide⟩).val :=
  dot_S1024x1024_S1024x1_S1024x1_1_0_0_1_n_n.lhsIdx_val_of_single rfl i q
theorem rhs_mm2_0 (i : S1024x1.Idx) (q : dot_S1024x1024_S1024x1_S1024x1_1_0_0_1_n_n.contr.Idx) :
    (dot_S1024x1024_S1024x1_S1024x1_1_0_0_1_n_n.rhsIdx i q 0).val = (q ⟨0, by decide⟩).val :=
  dot_S1024x1024_S1024x1_S1024x1_1_0_0_1_n_n.rhsIdx_val_of_single rfl i q
theorem rhs_mm2_1 (i : S1024x1.Idx) (q : dot_S1024x1024_S1024x1_S1024x1_1_0_0_1_n_n.contr.Idx) :
    (dot_S1024x1024_S1024x1_S1024x1_1_0_0_1_n_n.rhsIdx i q 1).val = (i 1).val := by
  unfold DotDims.rhsIdx
  rw [dif_neg (show ¬(1 : Fin S1024x1.rank) ∈ dot_S1024x1024_S1024x1_S1024x1_1_0_0_1_n_n.rhsBatch by decide), dif_pos (show (1 : Fin S1024x1.rank) ∈ dot_S1024x1024_S1024x1_S1024x1_1_0_0_1_n_n.rhsNonContracting by decide)]
  rfl

/-- Entry `(p, 0)` of the second layer's product into a zero accumulator: row `p` of the clipped columns against the weight column. -/
theorem mm2_apply (x : FVec Ideal S1024x1024 .bf16) (w : FVec Ideal S1024x1 .bf16) (p : Fin 1024) (k : Fin 1) :
    matmul dot_S1024x1024_S1024x1_S1024x1_1_0_0_1_n_n none x w (constant S1024x1 .f32 0x00000000#32) (ix2 p k) = ∑ j : Fin 1024, x (ix2 p j) * w (ix2 j k) := by
  simp only [matmul]
  rw [Ideal.matmul_constant_zero_apply, ← Equiv.sum_comp (contrEquiv1 dot_S1024x1024_S1024x1_S1024x1_1_0_0_1_n_n 1024 rfl rfl).symm]
  refine Finset.sum_congr rfl fun j _ => ?_
  have hk := contrEquiv1_symm_val dot_S1024x1024_S1024x1_S1024x1_1_0_0_1_n_n 1024 rfl rfl j
  have el : dot_S1024x1024_S1024x1_S1024x1_1_0_0_1_n_n.lhsIdx (ix2 p k) ((contrEquiv1 dot_S1024x1024_S1024x1_S1024x1_1_0_0_1_n_n 1024 rfl rfl).symm j) = ix2 p j := funext fun a => Fin.ext (by
    match a with
    | ⟨0, _⟩ => exact lhs_mm2_0 _ _
    | ⟨1, _⟩ => exact (lhs_mm2_1 _ _).trans hk)
  have er : dot_S1024x1024_S1024x1_S1024x1_1_0_0_1_n_n.rhsIdx (ix2 p k) ((contrEquiv1 dot_S1024x1024_S1024x1_S1024x1_1_0_0_1_n_n 1024 rfl rfl).symm j) = ix2 j k := funext fun a => Fin.ext (by
    match a with
    | ⟨0, _⟩ => exact (rhs_mm2_0 _ _).trans hk
    | ⟨1, _⟩ => exact rhs_mm2_1 _ _)
  rw [el, er]

/-! ## The stored value -/

/-- Entry `(p, q)` of what the body stores (`q` is the one column) is `rowOut` of tile row `p`, the weights read
    where the body's operands hold them. -/
theorem pay_row (x0 x1 : Vec Ideal S1024x768 .f32) (x2 : Vec Ideal S768x512 .bf16) (x3 : Vec Ideal S1x512 .f32)
    (x4 : Vec Ideal S1024x1 .bf16) (x5 : Vec Ideal S1x1 .f32) (p : Fin 1024) (q : Fin 1) :
    k0_pay1 x0 x1 x2 x3 x4 x5 (ix2 p q)
      = rowOut x0 x1 (fun j k => x2 (ix2 j k)) (fun k => x3 (ix2 0 k)) (fun k => x4 (ix2 k 0)) (x5 (ix2 0 0)) p := by
  obtain rfl : q = 0 := Subsingleton.elim _ _
  unfold k0_pay1 rowOut hidCat hid
  simp only [logistic, addf_apply, truncf_apply, minimumf_apply, maximumf_apply, shapeCast_self, mm2_apply, bcast_one_apply,
    concat_cols_apply, mm1_apply, bcast_row_apply, broadcast, Ideal.logistic_def, Ideal.ofBits_def]

end Cert.KernelIdeal.Row

end
-- ==== Proof.KernelArray.lean ====
/-
  The kernel's output array after the run.

  The grid has 16 points.  Point `t` holds rows `1024·t … 1024·t + 1023` of each input (all 768 columns), the
  whole of each weight array, and writes back rows `1024·t … 1024·t + 1023` of the one-column output.  The host
  operations before the region only re-lay the weights: the first layer's weights are transposed, the second
  layer's likewise, the two biases gain a unit axis (the narrowing to a shorter float format is the identity on
  extended reals).  So what point `t` writes back is `rowOut` of its tile's rows, which is `netOut` of the whole
  argument arrays read through the point's block (`flushed_eq`); the 16 blocks cover the output (`cover`), and
  the array after the run is `netOut` of the arguments (`final`, `run`).
-/
import proofs.«150987_j42408507081247_1_alg».proof.Proof.Gen.KernelIdeal.Value
import proofs.«150987_j42408507081247_1_alg».proof.Proof.KernelRow
import Idealize.ShloMosaic.Lib.Pipeline.Value
import Idealize.ShloMosaic.Lib.StableHlo.Run
import Idealize.ShloMosaic.Lib.ValueIdx

noncomputable section

open Idealize.ShloMosaic Idealize.ShloMosaic.ValueIdx Idealize.ShloMosaic.TcCoe Idealize.SL.Sem
open Idealize.ShloMosaic.Pipeline (Dat)
open scoped BigOperators

namespace Cert.KernelIdeal.Array

open Cert.KernelIdeal Cert.KernelIdeal.Gen Cert.TwoPerspective

variable (m : (ℓ : Loc nD τ sig) → Buf (Elt Ideal) ℓ) (ρ : Dev nD → PrngReg)

/-! ## The weights as the region finds them -/

/-- The first layer's weights, transposed by the host: entry `(j, k)` is the argument's entry `(k, j)`. -/
theorem V_w1 (c : Dev nD) (j : Fin 768) (k : Fin 512) :
    V (F := Ideal) m c main_v1 (ix2 j k) = m ((c : Thread nD τ).loc main_arg2) (ix2 k j) := by
  have e : @Eq (FVec Ideal S768x512 .bf16) (V (F := Ideal) m c main_v1)
      (truncf (F := Ideal) .bf16 (transpose S768x512 [1, 0] (m ((c : Thread nD τ).loc main_arg2)) transposes_S512x768_S768x512_1_0) bitsLt_bf16_f32) := by
    dsimp only [V, hostOps0]; after_results
  rw [e]
  exact transpose_apply [1, 0] (m ((c : Thread nD τ).loc main_arg2)) transposes_S512x768_S768x512_1_0 (ix2 j k) (ix2 k j) (fun b => match b with
    | ⟨0, _⟩ => rfl
    | ⟨1, _⟩ => rfl)

/-- The first layer's bias as a `[1, 512]` row: entry `(0, k)` is the argument's entry `k`. -/
theorem V_b1 (c : Dev nD) (a : Fin 1) (k : Fin 512) :
    V (F := Ideal) m c main_v2 (ix2 a k) = m ((c : Thread nD τ).loc main_arg3) (ix1 k) := by
  have e : @Eq (FVec Ideal S1x512 .f32) (V (F := Ideal) m c main_v2)
      (shapeCast S1x512 (m ((c : Thread nD τ).loc main_arg3)) shapeCasts_S512_S1x512) := by
    dsimp only [V, hostOps0]; after_results <;> rfl
  rw [e]
  exact shapeCast_apply _ _ (ix2 a k) (ix1 k) (by
    rw [Shape.rowMajor_val_one, Shape.rowMajor_val_two]
    show k.val = a.val * 512 + k.val
    have := a.isLt; omega)

/-- The second layer's weights, transposed by the host into a column: entry `(k, 0)` is the argument's entry `(0, k)`. -/
theorem V_w2 (c : Dev nD) (k : Fin 1024) (q : Fin 1) :
    V (F := Ideal) m c main_v4 (ix2 k q) = m ((c : Thread nD τ).loc main_arg4) (ix2 q k) := by
  have e : @Eq (FVec Ideal S1024x1 .bf16) (V (F := Ideal) m c main_v4)
      (truncf (F := Ideal) .bf16 (transpose S1024x1 [1, 0] (m ((c : Thread nD τ).loc main_arg4)) transposes_S1x1024_S1024x1_1_0) bitsLt_bf16_f32) := by
    dsimp only [V, hostOps0]; after_results
  rw [e]
  exact transpose_apply [1, 0] (m ((c : Thread nD τ).loc main_arg4)) transposes_S1x1024_S1024x1_1_0 (ix2 k q) (ix2 q k) (fun b => match b with
    | ⟨0, _⟩ => rfl
    | ⟨1, _⟩ => rfl)

/-- The second layer's bias as a `[1, 1]` entry: it is the argument's one entry. -/
theorem V_b2 (c : Dev nD) (a b : Fin 1) :
    V (F := Ideal) m c main_v5 (ix2 a b) = m ((c : Thread nD τ).loc main_arg5) (ix1 0) := by
  have e : @Eq (FVec Ideal S1x1 .f32) (V (F := Ideal) m c main_v5)
      (shapeCast S1x1 (m ((c : Thread nD τ).loc main_arg5)) shapeCasts_S1_S1x1) := by
    dsimp only [V, hostOps0]; after_results <;> rfl
  rw [e]
  exact shapeCast_apply _ _ (ix2 a b) (ix1 0) (by
    rw [Shape.rowMajor_val_one, Shape.rowMajor_val_two]
    show (0 : Nat) = a.val * 1 + b.val
    have := a.isLt; have := b.isLt; omega)

/-! ## The index maps over the 16 grid points -/

/-- Decided once over the grid: the two inputs' blocks move down the rows with the output's block (block row `t` at
    point `t`) and span all columns; each weight array is one block. -/
theorem idx_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (1 : Fin 2) = 0 ∧ win0_6.index t (0 : Fin 2) ≤ 15 :=
  (by decide +kernel : ∀ t : Fin grid0.N, _)

/-- Every block row of the output is some point's. -/
theorem idx_onto : ∀ q0 : Fin 16, ∃ t : Fin cfg0.N, win0_6.index t = ![q0.val, 0] :=
  (by decide +kernel : ∀ q0 : Fin 16, ∃ t : Fin grid0.N, win0_6.index t = ![q0.val, 0])

/-! ## What a point's blocks hold -/

/-- Row `p` of the first input's tile at point `t` is row `r` of the argument, `r` being `p` rows into the output's
    block at `t`. -/
theorem tile0 (c : Dev nD) (t : Fin cfg0.N) (p : Fin 1024) (j : Fin 768) (r : Fin 16384)
    (hr : r.val = win0_6.index t (0 : Fin 2) * 1024 + p.val) :
    iblk m c 0 t (ix2 p j) = m ((c : Thread nD τ).loc main_arg0) (ix2 r j) := by
  obtain ⟨e00, e01, -⟩ := idx_facts t
  refine Eq.trans ?_ (congrFun (V_main_arg0 m c) (ix2 r j))
  show V m c main_arg0 (((cfg0.win 0).blk t).view.emb (ix2 p j)) = V m c main_arg0 (ix2 r j)
  refine congrArg _ (funext fun a => Fin.ext ?_)
  match a with
  | ⟨0, _⟩ => show win0_0.index t (0 : Fin 2) * 1024 + 1 * p.val = r.val; omega
  | ⟨1, _⟩ => show win0_0.index t (1 : Fin 2) * 768 + 1 * j.val = j.val; omega

/-- The same for the second input. -/
theorem tile1 (c : Dev nD) (t : Fin cfg0.N) (p : Fin 1024) (j : Fin 768) (r : Fin 16384)
    (hr : r.val = win0_6.index t (0 : Fin 2) * 1024 + p.val) :
    iblk m c 1 t (ix2 p j) = m ((c : Thread nD τ).loc main_arg1) (ix2 r j) := by
  obtain ⟨-, -, e10, e11, -⟩ := idx_facts t
  refine Eq.trans ?_ (congrFun (V_main_arg1 m c) (ix2 r j))
  show V m c main_arg1 (((cfg0.win 1).blk t).view.emb (ix2 p j)) = V m c main_arg1 (ix2 r j)
  refine congrArg _ (funext fun a => Fin.ext ?_)
  match a with
  | ⟨0, _⟩ => show win0_1.index t (0 : Fin 2) * 1024 + 1 * p.val = r.val; omega
  | ⟨1, _⟩ => show win0_1.index t (1 : Fin 2) * 768 + 1 * j.val = j.val; omega

/-- The first layer's weight block is the whole transposed array. -/
theorem tile2 (c : Dev nD) (t : Fin cfg0.N) (j : Fin 768) (k : Fin 512) :
    iblk m c 2 t (ix2 j k) = m ((c : Thread nD τ).loc main_arg2) (ix2 k j) := by
  obtain ⟨-, -, -, -, e20, e21, -⟩ := idx_facts t
  refine Eq.trans ?_ (V_w1 m c j k)
  show V m c main_v1 (((cfg0.win 2).blk t).view.emb (ix2 j k)) = V m c main_v1 (ix2 j k)
  refine congrArg _ (funext fun a => Fin.ext ?_)
  match a with
  | ⟨0, _⟩ => show win0_2.index t (0 : Fin 2) * 768 + 1 * j.val = j.val; omega
  | ⟨1, _⟩ => show win0_2.index t (1 : Fin 2) * 512 + 1 * k.val = k.val; omega

/-- The first layer's bias block is the whole row. -/
theorem tile3 (c : Dev nD) (t : Fin cfg0.N) (a : Fin 1) (k : Fin 512) :
    iblk m c 3 t (ix2 a k) = m ((c : Thread nD τ).loc main_arg3) (ix1 k) := by
  obtain ⟨-, -, -, -, -, -, e30, e31, -⟩ := idx_facts t
  refine Eq.trans ?_ (V_b1 m c a k)
  show V m c main_v2 (((cfg0.win 3).blk t).view.emb (ix2 a k)) = V m c main_v2 (ix2 a k)
  refine congrArg _ (funext fun d => Fin.ext ?_)
  match d with
  | ⟨0, _⟩ => show win0_3.index t (0 : Fin 2) * 1 + 1 * a.val = a.val; omega
  | ⟨1, _⟩ => show win0_3.index t (1 : Fin 2) * 512 + 1 * k.val = k.val; omega

/-- The second layer's weight block is the whole column. -/
theorem tile4 (c : Dev nD) (t : Fin cfg0.N) (k : Fin 1024) (q : Fin 1) :
    iblk m c 4 t (ix2 k q) = m ((c : Thread nD τ).loc main_arg4) (ix2 q k) := by
  obtain ⟨-, -, -, -, -, -, -, -, e40, e41, -⟩ := idx_facts t
  refine Eq.trans ?_ (V_w2 m c k q)
  show V m c main_v4 (((cfg0.win 4).blk t).view.emb (ix2 k q)) = V m c main_v4 (ix2 k q)
  refine congrArg _ (funext fun d => Fin.ext ?_)
  match d with
  | ⟨0, _⟩ => show win0_4.index t (0 : Fin 2) * 1024 + 1 * k.val = k.val; omega
  | ⟨1, _⟩ => show win0_4.index t (1 : Fin 2) * 1 + 1 * q.val = q.val; omega

/-- The second layer's bias block is the one entry. -/
theorem tile5 (c : Dev nD) (t : Fin cfg0.N) (a b : Fin 1) :
    iblk m c 5 t (ix2 a b) = m ((c : Thread nD τ).loc main_arg5) (ix1 0) := by
  obtain ⟨-, -, -, -, -, -, -, -, -, -, e50, e51, -⟩ := idx_facts t
  refine Eq.trans ?_ (V_b2 m c a b)
  show V m c main_v5 (((cfg0.win 5).blk t).view.emb (ix2 a b)) = V m c main_v5 (ix2 a b)
  refine congrArg _ (funext fun d => Fin.ext ?_)
  match d with
  | ⟨0, _⟩ => show win0_5.index t (0 : Fin 2) * 1 + 1 * a.val = a.val; omega
  | ⟨1, _⟩ => show win0_5.index t (1 : Fin 2) * 1 + 1 * b.val = b.val; omega

/-! ## The output array -/

theorem hz : (![0, 0] : Fin 2 → Nat) = fun _ => 0 := funext fun a => by fin_cases a <;> rfl

/-- The result as one function of the argument arrays. -/
def result (c : Dev nD) : FVec Ideal S16384x1 .f32 :=
  netOut (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5))

/-- What point `t` writes back is block `t` of `result`. -/
theorem flushed_eq (c : Dev nD) (t : Fin cfg0.N) :
    (dats m 0 c).flushed 6 t = ((cfg0.win 6).blk t).view.read (Elt Ideal) (result m c) := by
  rw [Value.flushed6]
  unfold out0_6
  rw [View.canon_unit_zero hz]
  simp only [View.ld_unit_zero (S := S1024x768) hz, View.ld_unit_zero (S := S768x512) hz, View.ld_unit_zero (S := S1x512) hz,
    View.ld_unit_zero (S := S1024x1) hz, View.ld_unit_zero (S := S1x1) hz]
  funext y
  obtain ⟨p, q, rfl⟩ : ∃ (p : Fin 1024) (q : Fin 1), y = ix2 p q := ⟨y 0, y 1, eq_ix2 y⟩
  show k0_pay1 (iblk m c 0 t) (iblk m c 1 t) (iblk m c 2 t) (iblk m c 3 t) (iblk m c 4 t) (iblk m c 5 t) (ix2 p q)
    = result m c (((cfg0.win 6).blk t).view.emb (ix2 p q))
  refine (Row.pay_row (iblk m c 0 t) (iblk m c 1 t) (iblk m c 2 t) (iblk m c 3 t) (iblk m c 4 t) (iblk m c 5 t) p q).trans ?_
  unfold result netOut
  have hr : ((((cfg0.win 6).blk t).view.emb (ix2 p q)) 0).val = win0_6.index t (0 : Fin 2) * 1024 + p.val := by
    show win0_6.index t (0 : Fin 2) * 1024 + 1 * p.val = _; omega
  exact rowOut_congr _ _ _ _ _ _ _ _ _ _ _ _ p _
    (fun j => tile0 m c t p j _ hr) (fun j => tile1 m c t p j _ hr)
    (fun j k => tile2 m c t j k) (fun k => tile3 m c t 0 k) (fun k => tile4 m c t k 0) (tile5 m c t 0 0)

/-- An index of the output is in point `t`'s block iff each coordinate is in the block's range on its axis. -/
theorem mem_blk (t : Fin cfg0.N) (i : S16384x1.Idx) :
    i ∈ ((cfg0.win 6).blk t).view.set ↔ ∀ a : Fin 2, win0_6.index t a * S1024x1.size a ≤ (i a).val ∧ (i a).val < win0_6.index t a * S1024x1.size a + S1024x1.size a := by
  show i ∈ ((View.whole main_v6).slice (win0_6.rect t)).set ↔ _
  rw [View.set_slice_whole, Rect.mem_set_unit]
  exact Iff.rfl

/-- Every row of the output lies in the block of the point `row / 1024`. -/
theorem cover (i : S16384x1.Idx) :
    ∃ t : Fin cfg0.N, (cfg0.win 6).flush t = true ∧ i ∈ ((cfg0.win 6).blk t).view.set := by
  have hi0 : (i 0).val < 16384 := (i 0).isLt
  have hi1 : (i 1).val < 1 := (i 1).isLt
  obtain ⟨t, ht⟩ := idx_onto ⟨(i 0).val / 1024, by omega⟩
  have q0 : win0_6.index t (0 : Fin 2) = (i 0).val / 1024 := congrFun ht 0
  have q1 : win0_6.index t (1 : Fin 2) = 0 := congrFun ht 1
  refine ⟨t, flush0_6 t, ?_⟩
  rw [mem_blk]
  intro a
  match a with
  | ⟨0, _⟩ => show win0_6.index t (0 : Fin 2) * 1024 ≤ (i 0).val ∧ (i 0).val < win0_6.index t (0 : Fin 2) * 1024 + 1024; omega
  | ⟨1, _⟩ => show win0_6.index t (1 : Fin 2) * 1 ≤ (i 1).val ∧ (i 1).val < win0_6.index t (1 : Fin 2) * 1 + 1; omega

/-- The output array after the run is `result`. -/
theorem final (c : Dev nD) : (dats m 0 c).arrAt 6 cfg0.N = result m c :=
  (dats m 0 c).arrAt_eq_of_cover 6 (result m c) (fun t _ => flushed_eq m c t) cover

/-- The kernel's run: it terminates with the output array at `result` and the arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Array

end
-- ==== Proof.RefRow.lean ====
/-
  The reference's value, row by row.

  The reference works on the whole arrays: it transposes the first layer's weights, multiplies, adds the bias
  repeated down the rows, joins the two perspectives' 512 columns, clips, multiplies with the second layer's
  transposed weights, adds its bias and takes `1 / (1 + exp(-·))`, which on extended reals is the logistic function.
  Read at row `r` (the result has one column) this is `rowOut` of row `r`, the weights read where the reference's
  arguments hold them.
-/
import proofs.«150987_j42408507081247_1_alg».proof.Proof.Gen.ReferenceIdeal.Read
import proofs.«150987_j42408507081247_1_alg».proof.Proof.Spec
import proofs.«150987_j42408507081247_1_alg».proof.Proof.Layout
import Idealize.ShloMosaic.Lib.ValueIdx
import Idealize.ShloMosaic.Lib.IdealHost

noncomputable section

open Idealize.ShloMosaic Idealize.ShloMosaic.ValueIdx
open scoped BigOperators

namespace Cert.ReferenceIdeal.Row

open Cert.ReferenceIdeal Cert.ReferenceIdeal.Read Cert.TwoPerspective

/-! ## The reference's index functions in coordinates -/

theorem lidx13 (r : Fin 16384) (q : Fin 1) (k : Fin 1024) : lidx_main_v13 (ix2 r q) k = ix2 r k :=
  funext fun a => Fin.ext (by match a with | ⟨0, _⟩ => rfl | ⟨1, _⟩ => rfl)
theorem ridx13 (r : Fin 16384) (q : Fin 1) (k : Fin 1024) : ridx_main_v13 (ix2 r q) k = ix2 k q :=
  funext fun a => Fin.ext (by match a with | ⟨0, _⟩ => rfl | ⟨1, _⟩ => rfl)
theorem idx12 (k : Fin 1024) (q : Fin 1) : idx_main_v12 (ix2 k q) = ix2 q k :=
  funext fun a => Fin.ext (by match a with | ⟨0, _⟩ => rfl | ⟨1, _⟩ => rfl)
theorem idx15 (r : Fin 16384) (q : Fin 1) : idx_main_v15 (ix2 r q) = ix2 0 0 :=
  funext fun a => Fin.ext (by match a with | ⟨0, _⟩ => rfl | ⟨1, _⟩ => rfl)
theorem idx14 (a b : Fin 1) : idx_main_v14 (ix2 a b) = ix1 0 :=
  funext fun a => Fin.ext (by match a with | ⟨0, _⟩ => rfl)
theorem lidx1 (r : Fin 16384) (k : Fin 512) (j : Fin 768) : lidx_main_v1 (ix2 r k) j = ix2 r j :=
  funext fun a => Fin.ext (by match a with | ⟨0, _⟩ => rfl | ⟨1, _⟩ => rfl)
theorem ridx1 (r : Fin 16384) (k : Fin 512) (j : Fin 768) : ridx_main_v1 (ix2 r k) j = ix2 j k :=
  funext fun a => Fin.ext (by match a with | ⟨0, _⟩ => rfl | ⟨1, _⟩ => rfl)
theorem idx0 (j : Fin 768) (k : Fin 512) : idx_main_v0 (ix2 j k) = ix2 k j :=
  funext fun a => Fin.ext (by match a with | ⟨0, _⟩ => rfl | ⟨1, _⟩ => rfl)
theorem idx3 (r : Fin 16384) (k : Fin 512) : idx_main_v3 (ix2 r k) = ix2 0 k :=
  funext fun a => Fin.ext (by match a with | ⟨0, _⟩ => rfl | ⟨1, _⟩ => rfl)
theorem idx2 (a : Fin 1) (k : Fin 512) : idx_main_v2 (ix2 a k) = ix1 k :=
  funext fun a => Fin.ext (by match a with | ⟨0, _⟩ => rfl)
theorem lidx6 (r : Fin 16384) (k : Fin 512) (j : Fin 768) : lidx_main_v6 (ix2 r k) j = ix2 r j :=
  funext fun a => Fin.ext (by match a with | ⟨0, _⟩ => rfl | ⟨1, _⟩ => rfl)
theorem ridx6 (r : Fin 16384) (k : Fin 512) (j : Fin 768) : ridx_main_v6 (ix2 r k) j = ix2 j k :=
  funext fun a => Fin.ext (by match a with | ⟨0, _⟩ => rfl | ⟨1, _⟩ => rfl)
theorem idx5 (j : Fin 768) (k : Fin 512) : idx_main_v5 (ix2 j k) = ix2 k j :=
  funext fun a => Fin.ext (by match a with | ⟨0, _⟩ => rfl | ⟨1, _⟩ => rfl)
theorem idx8 (r : Fin 16384) (k : Fin 512) : idx_main_v8 (ix2 r k) = ix2 0 k :=
  funext fun a => Fin.ext (by match a with | ⟨0, _⟩ => rfl | ⟨1, _⟩ => rfl)
theorem idx7 (a : Fin 1) (k : Fin 512) : idx_main_v7 (ix2 a k) = ix1 k :=
  funext fun a => Fin.ext (by match a with | ⟨0, _⟩ => rfl)

/-! ## The result at a row -/

/-- Entry `(r, q)` of the reference's result (`q` is the one column) is `rowOut` of row `r`. -/
theorem ref_row (x0 x1 : FVec Ideal S16384x768 .f32) (x2 : FVec Ideal S512x768 .f32) (x3 : FVec Ideal S512 .f32)
    (x4 : FVec Ideal S1x1024 .f32) (x5 : FVec Ideal S1 .f32) (r : Fin 16384) (q : Fin 1) :
    val_main_v22 (F := Ideal) x0 x1 x2 x3 x4 x5 (ix2 r q)
      = rowOut x0 x1 (fun j k => x2 (ix2 k j)) (fun k => x3 (ix1 k)) (fun k => x4 (ix2 0 k)) (x5 (ix1 0)) r := by
  obtain rfl : q = 0 := Subsingleton.elim _ _
  unfold rowOut hidCat hid
  simp only [val_main_v22_apply, val_main_v21_apply, val_main_cst_2_apply, val_main_v20_apply, val_main_v19_apply,
    val_main_cst_1_apply, val_main_v18_apply, val_main_v17_apply, val_main_v16_apply, val_main_v13_apply, val_main_v15_apply,
    val_main_v14_apply, val_main_v12_apply, val_main_v11_apply, val_main_call0_v4_apply, val_main_call0_v3_apply,
    val_main_cst_0_apply, val_main_call0_v2_apply, val_main_call0_v1_apply, val_main_call0_v0_apply, val_main_cst_apply,
    lidx13, ridx13, idx12, idx15, idx14, val_main_v10, concat_cols_apply,
    val_main_v4_apply, val_main_v1_apply, val_main_v0_apply, val_main_v3_apply, val_main_v2_apply,
    val_main_v9_apply, val_main_v6_apply, val_main_v5_apply, val_main_v8_apply, val_main_v7_apply,
    lidx1, ridx1, idx0, idx3, idx2, lidx6, ridx6, idx5, idx8, idx7,
    Ideal.hostDivf_def, Ideal.addf_def, Ideal.hostUnary_exp_def, Ideal.hostNegf_def, Ideal.negf_def, Ideal.minimumf_def,
    Ideal.maximumf_def, Ideal.ofBits_def, Ideal.ofBits_one_f32, Ideal.logistic]

/-- The reference's whole result is `netOut` of its arguments: every index of the one-column result is a row. -/
theorem ref_result (x0 x1 : FVec Ideal S16384x768 .f32) (x2 : FVec Ideal S512x768 .f32) (x3 : FVec Ideal S512 .f32)
    (x4 : FVec Ideal S1x1024 .f32) (x5 : FVec Ideal S1 .f32) :
    val_main_v22 (F := Ideal) x0 x1 x2 x3 x4 x5 = netOut x0 x1 x2 x3 x4 x5 := by
  funext i
  obtain ⟨r, q, rfl⟩ : ∃ (r : Fin 16384) (q : Fin 1), i = ix2 r q := ⟨i 0, i 1, eq_ix2 i⟩
  exact ref_row x0 x1 x2 x3 x4 x5 r q

end Cert.ReferenceIdeal.Row

end
-- ==== Proof.lean ====
/-
  Two programs evaluate a small two-perspective network on 16384 positions, and this file proves that, read over
  the extended reals, they compute the same `[16384, 1]` array.

  Each position comes as two rows of 768 features.  A shared affine layer (weights `W1 : [512, 768]`, bias `b1`)
  maps each row to 512 numbers; the two results are laid side by side, clipped to [0, 1], and a second affine form
  (weights `W2 : [1, 1024]`, bias `b2`) followed by the logistic function gives the position's output:

      out[r] = logistic(Σ_k clip(cat(x·W1ᵀ + b1, x'·W1ᵀ + b1))[r, k] · W2[0, k] + b2[0]).

  The kernel walks the rows in 16 tiles of 1024, holding the transposed weights whole and narrowing its matrix
  operands to a shorter float format, which is the identity on extended reals; the reference does the same
  arithmetic on whole arrays and spells the logistic function as `1 / (1 + exp(-·))`.  A row's output depends on
  that row of the inputs only, so the tiling changes nothing: both results are `netOut` of the six arguments
  (Proof/Spec.lean).  No step uses an algebraic law beyond unfolding the operations, so the inputs' finiteness is
  never opened.

  Proof/KernelRow.lean reads the kernel body's stored value at a row, Proof/KernelArray.lean assembles the 16
  blocks into the output array, Proof/RefRow.lean reads the reference's result at a row.  The frames of the two
  kernel programs and the reference's run are the generated ones.
-/
import proofs.«150987_j42408507081247_1_alg».proof.Defs
import proofs.«150987_j42408507081247_1_alg».proof.Proof.Gen.Kernel
import proofs.«150987_j42408507081247_1_alg».proof.Proof.Gen.Kernel.Skeleton
import proofs.«150987_j42408507081247_1_alg».proof.Proof.Gen.Kernel.Launch
import proofs.«150987_j42408507081247_1_alg».proof.Proof.Gen.Kernel.Points
import proofs.«150987_j42408507081247_1_alg».proof.Proof.Gen.Kernel.Frame
import proofs.«150987_j42408507081247_1_alg».proof.Proof.Gen.KernelIdeal
import proofs.«150987_j42408507081247_1_alg».proof.Proof.Gen.KernelIdeal.Skeleton
import proofs.«150987_j42408507081247_1_alg».proof.Proof.Gen.KernelIdeal.Launch
import proofs.«150987_j42408507081247_1_alg».proof.Proof.Gen.KernelIdeal.Points
import proofs.«150987_j42408507081247_1_alg».proof.Proof.Gen.KernelIdeal.Frame
import proofs.«150987_j42408507081247_1_alg».proof.Proof.Gen.ReferenceIdeal
import proofs.«150987_j42408507081247_1_alg».proof.Proof.Gen.Pre_finite_inputs
import proofs.«150987_j42408507081247_1_alg».proof.Proof.Gen.KernelIdeal.Value
import proofs.«150987_j42408507081247_1_alg».proof.Proof.Gen.ReferenceIdeal.Run
import proofs.«150987_j42408507081247_1_alg».proof.Proof.Gen.ReferenceIdeal.Read
import proofs.«150987_j42408507081247_1_alg».proof.Proof.KernelArray
import proofs.«150987_j42408507081247_1_alg».proof.Proof.RefRow
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run, with its result dropped, is its frame. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the six arguments both programs end with the same result: `netOut` of the
    arguments — the kernel's output array by its 16 blocks (`Array.run`), the reference's by reading its
    composed term at each row (`Row.ref_result`). -/
theorem algebraic : Cert.algebraic_KernelIdeal_ReferenceIdeal := by
  intro m ρ m' ρ' _ hagree
  refine ⟨fun c => Cert.KernelIdeal.Array.result m c, Cert.KernelIdeal.Array.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v22_eq _ _ _ _ _ _).trans ?_
  refine (Cert.ReferenceIdeal.Row.ref_result _ _ _ _ _ _).trans ?_
  obtain ⟨h0, h1, h2, h3, h4, h5⟩ := hagree c
  unfold Cert.KernelIdeal.Array.result
  rw [h0, h1, h2, h3, h4, h5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
